-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S1024x1 : Shape := ⟨2, ![1024, 1]⟩
abbrev S1x512x64 : Shape := ⟨3, ![1, 512, 64]⟩
abbrev S512x64 : Shape := ⟨2, ![512, 64]⟩
abbrev S64x512 : Shape := ⟨2, ![64, 512]⟩
abbrev S1024x512 : Shape := ⟨2, ![1024, 512]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v15 : BitVec 32 := Scalar.muli arg6 c512_i32
  v15
def k0_off1 (k0_t1 : Fin k0_t1_loop.trips) : Fin 3 → Nat :=
  let c0_9 : Index := 0#32
  let c0_i32 : BitVec 32 := 0#32
  let c1_i32 : BitVec 32 := 1#32
  let arg6 : BitVec 32 := Scf.iv c0_i32 c1_i32 k0_t1
  let c512_i32 : BitVec 32 := 512#32
  let v15 : BitVec 32 := Scalar.muli arg6 c512_i32
  let v16 : BitVec 32 := v15
  let v17 : Index := Scalar.indexCast v16
  let c0_10 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  h_S1x512x64 : 0 < S1x512x64.numel
  shapeCasts_S1x512x64_S512x64 : S1x512x64.ShapeCasts S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttentionFunction.lean ====
/-
  Softmax attention over the reals, as the one function both programs compute.

  For head `(b, h)`, query row `q` and output column `d`:
  the scaled score of `q` against key row `k` is `s k = (∑ e, Q[b,h,q,e] · K[b,h,k,e]) · c`,
  and the result is the exp-weighted average `(∑ k, exp (s k) · V[b,h,k,d]) / (∑ k, exp (s k))`.
  A softmax is unchanged by subtracting any one real from every score, so no shift is written here:
  both programs subtract a running or a whole-row maximum, and either is just some real.

  Also here: the two float literals both programs spell — `0x3E000000` is `1/8` (the scale `64^(-1/2)`,
  a power of two, hence exact) and `0xFF800000` is `-∞`, the bottom of the extended reals.
-/
import Mathlib.Analysis.SpecialFunctions.Exp
import Idealize.ShloMosaic.PureOps.Ideal
import Idealize.ShloMosaic.Lib.ValueIdx

noncomputable section

namespace Cert.Attention

open Idealize.ShloMosaic Idealize.ShloMosaic.ValueIdx

/-- The arrays' shape: batch 4, heads 16, sequence 2048, head dimension 64. -/
abbrev SA : Shape := ⟨4, ![4, 16, 2048, 64]⟩

/-- The scaled score of query row `q` against key row `k` of head `(b, h)`: their inner product times `c`. -/
def score (c : ℝ) (qR kR : SA.Idx → ℝ) (b : Fin 4) (h : Fin 16) (q k : Fin 2048) : ℝ :=
  (∑ e : Fin 64, qR (ix4 b h q e) * kR (ix4 b h k e)) * c

/-- Softmax attention at `(b, h, q, d)`: the exp-weighted average of column `d` of the value rows. -/
def attn (c : ℝ) (qR kR vR : SA.Idx → ℝ) (b : Fin 4) (h : Fin 16) (q : Fin 2048) (d : Fin 64) : ℝ :=
  (∑ k : Fin 2048, Real.exp (score c qR kR b h q k) * vR (ix4 b h k d))
    / (∑ k : Fin 2048, Real.exp (score c qR kR b h q k))

/-- The whole result array: softmax attention at every index, read in the extended reals. -/
def attnArr (qR kR vR : SA.Idx → ℝ) : SA.Idx → EReal := fun i =>
  ((attn (1 / 8) qR kR vR ⟨(i 0).val, (i 0).isLt⟩ ⟨(i 1).val, (i 1).isLt⟩ ⟨(i 2).val, (i 2).isLt⟩ ⟨(i 3).val, (i 3).isLt⟩ : ℝ) : EReal)

theorem attnArr_apply (qR kR vR : SA.Idx → ℝ) (b : Fin 4) (h : Fin 16) (q : Fin 2048) (d : Fin 64) :
    attnArr qR kR vR (ix4 b h q d) = ((attn (1 / 8) qR kR vR b h q d : ℝ) : EReal) := rfl

/-- The pattern `0x3E000000` denotes `1/8`. -/
theorem ofBits_eighth : Ideal.ofBits .f32 0x3E000000#32 = ((1 / 8 : ℝ) : EReal) := by
  simp [Ideal.ofBits, Ideal.ieee, -EReal.coe_mul]; norm_num

/-- The pattern `0xFF800000` denotes `-∞`. -/
theorem ofBits_neg_inf : Ideal.ofBits .f32 0xFF800000#32 = (⊥ : EReal) := by
  simp [Ideal.ofBits, Ideal.ieee]

/-- The pattern of `+0.0` denotes `0`. -/
theorem ofBits_zero : Ideal.ofBits .f32 0x00000000#32 = (0 : EReal) := by
  simp [Ideal.ofBits, Ideal.ieee]

end Cert.Attention

end
-- ==== Proof.FiniteInputs.lean ====
/-
  The precondition, read: every entry of the three input arrays is a real.

  The precondition is the conjunction, over the three arrays, of "every entry's absolute value is below `+∞`";
  an extended real whose absolute value is below `+∞` is neither infinity, hence a real.
-/
import proofs.«423420_j32263794328206_3_alg».proof.Pre_finite_inputs
import Idealize.ShloMosaic.PureOps.Ideal
import Idealize.ShloMosaic.Lib.ValueIdx
import Idealize.ShloMosaic.Lib.ReduceAll

noncomputable section

namespace Cert.Attention

open Idealize.ShloMosaic Idealize.ShloMosaic.ValueIdx

variable [Cert.Pre_finite_inputs.Facts]

/-- The result shape of an all-axes reduction has one index. -/
private instance subsingleton_scalar_idx : Subsingleton Cert.Pre_finite_inputs.S_.Idx :=
  ⟨fun _ _ => funext fun d => d.elim0⟩

/-- The pattern `0x7F800000` denotes `+∞`, the top of the extended reals. -/
private theorem ofBits_pos_inf : Ideal.ofBits .f32 0x7F800000#32 = (⊤ : EReal) := by
  simp [Ideal.ofBits, Ideal.ieee]

/-- An extended real whose absolute value `max x (-x)` is strictly below `+∞` is a real:
    at `⊤` the maximum is `⊤` itself, at `⊥` it is `-⊥ = ⊤`. -/
private theorem real_of_abs_lt_top (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- One array's conjunct: if the all-axes `and` of "`|x| < +∞`" is true, every entry of the array is a real. -/
private theorem real_of_all (X : FVec Ideal Cert.Pre_finite_inputs.S4x16x2048x64 .f32)
    (init : IVec Cert.Pre_finite_inputs.S_ 1)
    (h : Host.reduce IntOp.andi
        (cmpf .olt (Host.absf X)
          (broadcastInDim Cert.Pre_finite_inputs.S4x16x2048x64 ![]
            Cert.Pre_finite_inputs.Facts.bcast_S_S4x16x2048x64
            (constant Cert.Pre_finite_inputs.S_ .f32 0x7F800000#32)))
        init Cert.Pre_finite_inputs.Facts.reducesTo_S4x16x2048x64_S_d0_1_2_3
        Cert.Pre_finite_inputs.Facts.h_S_ ValueIdx.ix0 = 1#1) :
    ∀ i, ∃ r : ℝ, X i = (r : EReal) := by
  intro i
  have hi := Host.reduce_andi_all _ _ _ _ _ h i
  exact real_of_abs_lt_top (X i) hi

/-- Under the precondition every entry of each input array is a real. -/
theorem real_of_pre (Q K V : FVec Ideal Cert.Pre_finite_inputs.S4x16x2048x64 .f32)
    (hpre : Cert.Pre_finite_inputs.fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h := congrFun hpre ValueIdx.ix0
  dsimp only [Cert.Pre_finite_inputs.fn, andi] at h
  obtain ⟨hQK, hV⟩ := IntOp.andi_eq_one.1 h
  obtain ⟨hQ, hK⟩ := IntOp.andi_eq_one.1 hQK
  exact ⟨real_of_all Q _ hQ, real_of_all K _ hK, real_of_all V _ hV⟩

end Cert.Attention

end
-- ==== Proof.LibRunningSoftmax.lean ====
/-
  The running softmax on one row, over the reals.

  A row's keys come in chunks. After some chunks the row carries a shift `m` (a maximum so far: for the
  algebra any real will do), the sum `l = ∑ exp (s i - m)` over the keys seen, and per output column
  `a = ∑ exp (s i - m) · v i`. A new chunk with scores `t j` moves the shift to `m'` and rescales:
    `l' = exp (m - m') · l + ∑ exp (t j - m')`,   `a' = exp (m - m') · a + ∑ exp (t j - m') · u j`,
  and because `exp (m - m') · exp (s i - m) = exp (s i - m')` these are again the sums over all keys seen,
  at the new shift (`rescale_add`). Before the first chunk the shift is `-∞` and both sums are empty, hence
  zero, so the rescaling factor — whatever it is — multiplies zero. At the end `a / l` does not depend on the
  shift (`softmax_shift`).

  Everything the programs compute on a row is a real once the inputs are: the lemmas here push the
  extended reals' operations through the coercion `ℝ → EReal`.
-/
import Mathlib.Analysis.SpecialFunctions.Exp
import Idealize.ShloMosaic.PureOps.Ideal

noncomputable section

namespace Cert.Attention

open Idealize.ShloMosaic

/-- A finite sum of reals, read in the extended reals, is the sum of the terms read there. -/
theorem coe_sum {ι : Type*} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- The maximum, taken from `-∞`, of finitely many reals — at least one — is a real. -/
theorem fold_max_real {ι : Type*} (S : Finset ι) (hS : S.Nonempty) (f : ι → EReal)
    (hf : ∀ i ∈ S, ∃ r : ℝ, f i = (r : EReal)) :
    ∃ r : ℝ, S.fold max (⊥ : EReal) f = (r : EReal) := by
  classical
  -- the fold is a real, or nothing has been folded yet and it still is `-∞`
  have key : ∀ T : Finset ι, (∀ i ∈ T, ∃ r : ℝ, f i = (r : EReal)) →
      (T = ∅ ∧ T.fold max (⊥ : EReal) f = ⊥) ∨ ∃ r : ℝ, T.fold max (⊥ : EReal) f = (r : EReal) := by
    intro T
    refine Finset.induction_on T (fun _ => Or.inl ⟨rfl, Finset.fold_empty⟩) ?_
    intro a T ha ih hT
    obtain ⟨ra, hra⟩ := hT a (Finset.mem_insert_self a T)
    right
    rcases ih (fun i hi => hT i (Finset.mem_insert_of_mem hi)) with ⟨-, h⟩ | ⟨r, hr⟩
    · exact ⟨ra, by rw [Finset.fold_insert ha, h, hra, max_bot_right]⟩
    · exact ⟨max ra r, by rw [Finset.fold_insert ha, hr, hra, EReal.coe_strictMono.monotone.map_max]⟩
  rcases key S hf with ⟨h, -⟩ | h
  · exact absurd h hS.ne_empty
  · exact h

/-- The larger of anything below `+∞` and a real is a real. -/
theorem max_real_right (m : EReal) (hm : m ≠ ⊤) (r : ℝ) : ∃ r' : ℝ, max m (r : EReal) = (r' : EReal) := by
  induction m using EReal.rec with
  | bot => exact ⟨r, max_bot_left _⟩
  | coe a => exact ⟨max a r, (EReal.coe_strictMono.monotone.map_max).symm⟩
  | top => exact absurd rfl hm

/-- One chunk's rescaling of a weighted sum. `I` indexes the keys seen so far (scores `s`, weights `w`), `κ` the new
    chunk (scores `t`, weights `u`); the old shift `m` is a real as soon as a key has been seen, and anything at all
    before; the new shift is the real `r'`. -/
theorem rescale_add {ι κ : Type*} [Fintype κ] (I : Finset ι) (s w : ι → ℝ) (t u : κ → ℝ) (m : EReal) (r' : ℝ)
    (hm : I.Nonempty → ∃ r : ℝ, m = (r : EReal)) :
    Ideal.exp (m - (r' : EReal)) * ((∑ i ∈ I, Real.exp (s i - m.toReal) * w i : ℝ) : EReal)
        + ∑ j : κ, Ideal.exp ((t j : EReal) - (r' : EReal)) * (u j : EReal)
      = ((∑ i ∈ I, Real.exp (s i - r') * w i + ∑ j : κ, Real.exp (t j - r') * u j : ℝ) : EReal) := by
  classical
  -- the new chunk's terms are reals
  have hnew : ∑ j : κ, Ideal.exp ((t j : EReal) - (r' : EReal)) * (u j : EReal)
      = ((∑ j : κ, Real.exp (t j - r') * u j : ℝ) : EReal) := by
    rw [coe_sum]
    refine Finset.sum_congr rfl (fun j _ => ?_)
    rw [← EReal.coe_sub, Ideal.exp_coe, EReal.coe_mul]
  rw [hnew, EReal.coe_add]
  congr 1
  rcases I.eq_empty_or_nonempty with hI | hI
  · -- nothing seen yet: the factor multiplies an empty sum
    subst hI
    simp
  · -- the old shift is a real `r`, and `exp (r - r') · exp (s i - r) = exp (s i - r')`
    obtain ⟨r, rfl⟩ := hm hI
    rw [← EReal.coe_sub, Ideal.exp_coe, EReal.toReal_coe, ← EReal.coe_mul]
    congr 1
    rw [Finset.mul_sum]
    refine Finset.sum_congr rfl (fun i _ => ?_)
    rw [← mul_assoc, ← Real.exp_add]
    congr 2
    ring

/-- The same for the plain sum of the exponentials (all weights one). -/
theorem rescale_add_one {ι κ : Type*} [Fintype κ] (I : Finset ι) (s : ι → ℝ) (t : κ → ℝ) (m : EReal) (r' : ℝ)
    (hm : I.Nonempty → ∃ r : ℝ, m = (r : EReal)) :
    Ideal.exp (m - (r' : EReal)) * ((∑ i ∈ I, Real.exp (s i - m.toReal) : ℝ) : EReal)
        + ∑ j : κ, Ideal.exp ((t j : EReal) - (r' : EReal))
      = ((∑ i ∈ I, Real.exp (s i - r') + ∑ j : κ, Real.exp (t j - r') : ℝ) : EReal) := by
  have h := rescale_add I s (fun _ => (1 : ℝ)) t (fun _ => (1 : ℝ)) m r' hm
  simp only [mul_one, EReal.coe_one] at h
  exact h

/-- A sum of exponentials over a nonempty index type is positive. -/
theorem sum_exp_pos {κ : Type*} [Fintype κ] [Nonempty κ] (s : κ → ℝ) : 0 < ∑ k, Real.exp (s k) := by
  exact Finset.sum_pos (fun k _ => Real.exp_pos _) Finset.univ_nonempty

/-- A softmax-weighted average does not depend on the shift. -/
theorem softmax_shift {κ : Type*} [Fintype κ] [Nonempty κ] (s v : κ → ℝ) (r : ℝ) :
    (∑ k, Real.exp (s k - r) * v k) / (∑ k, Real.exp (s k - r))
      = (∑ k, Real.exp (s k) * v k) / (∑ k, Real.exp (s k)) := by
  -- `exp (s k - r) = exp (s k) · exp (-r)`: the common factor leaves both sums and cancels
  have h1 : ∀ k, Real.exp (s k - r) = Real.exp (s k) * Real.exp (-r) := fun k => by
    rw [sub_eq_add_neg, Real.exp_add]
  have hne : Real.exp (-r) ≠ 0 := (Real.exp_pos _).ne'
  have hnum : ∑ k, Real.exp (s k - r) * v k = (∑ k, Real.exp (s k) * v k) * Real.exp (-r) := by
    rw [Finset.sum_mul]
    refine Finset.sum_congr rfl (fun k _ => ?_)
    rw [h1 k]
    ring
  have hden : ∑ k, Real.exp (s k - r) = (∑ k, Real.exp (s k)) * Real.exp (-r) := by
    rw [Finset.sum_mul]
    exact Finset.sum_congr rfl (fun k _ => h1 k)
  rw [hnum, hden, mul_div_mul_right _ _ hne]

/-- The quotient of two reals, the divisor not zero, as the extended reals' division computes it. -/
theorem div_coe_coe (A L : ℝ) (hL : L ≠ 0) : Ideal.div (A : EReal) (L : EReal) = ((A / L : ℝ) : EReal) := by
  rw [Ideal.div_coe hL, ← EReal.coe_mul, mul_one_div]

/-- Normalising each weight first and summing after is the same as summing first and dividing once. -/
theorem sum_div_mul {κ : Type*} [Fintype κ] (e v : κ → ℝ) (L : ℝ) (hL : L ≠ 0) :
    ∑ k, Ideal.div ((e k : ℝ) : EReal) (L : EReal) * (v k : EReal) = (((∑ k, e k * v k) / L : ℝ) : EReal) := by
  have h : ∀ k, Ideal.div ((e k : ℝ) : EReal) (L : EReal) * (v k : EReal) = ((e k * v k / L : ℝ) : EReal) := by
    intro k
    rw [div_coe_coe _ _ hL, ← EReal.coe_mul]
    congr 1
    ring
  simp only [h]
  rw [← coe_sum, Finset.sum_div]

/-- An inner product with one factor scaled first is the inner product scaled after. -/
theorem sum_scaled_mul {κ : Type*} [Fintype κ] (x y : κ → ℝ) (c : ℝ) :
    ∑ e, (x e * c) * y e = (∑ e, x e * y e) * c := by
  rw [Finset.sum_mul]
  exact Finset.sum_congr rfl (fun e _ => by ring)

end Cert.Attention

end
-- ==== Proof.ReferenceValue.lean ====
/-
  What the reference computes at an index, from real inputs: the softmax attention of `AttentionFunction`.

  The reference takes the scores `(∑ e, Q · K) · 1/8`, subtracts each row's maximum (taken from `-∞`: a real, since a
  row has keys and every score is a real), exponentiates, divides each weight by the row's sum (`0 +` the sum of the
  weights: positive, so the division is the real one) and contracts the normalised weights with the value rows.
  Normalising first or dividing once at the end is the same (`sum_div_mul`), and the maximum subtracted drops out
  (`softmax_shift`).
-/
import proofs.«423420_j32263794328206_3_alg».proof.Proof.Gen.ReferenceIdeal.Read
import proofs.«423420_j32263794328206_3_alg».proof.Proof.AttentionFunction
import proofs.«423420_j32263794328206_3_alg».proof.Proof.LibRunningSoftmax
import Idealize.ShloMosaic.Lib.ValueIdx
import Idealize.ShloMosaic.PureOps.Ideal.Laws

noncomputable section

namespace Cert.Attention.Reference

open Idealize.ShloMosaic Idealize.ShloMosaic.ValueIdx Cert.ReferenceIdeal Cert.Attention

variable [Cert.ReferenceIdeal.Facts]

/-! ### The indices the stages read at, in coordinates -/

private theorem lidx_v0 (b : Fin 4) (h : Fin 16) (q k : Fin 2048) (e : Fin 64) :
    Read.lidx_main_v0 (ix4 b h q k) e = ix4 b h q e :=
  funext fun a => Fin.ext (by match a with | ⟨0, _⟩ => rfl | ⟨1, _⟩ => rfl | ⟨2, _⟩ => rfl | ⟨3, _⟩ => rfl)

private theorem ridx_v0 (b : Fin 4) (h : Fin 16) (q k : Fin 2048) (e : Fin 64) :
    Read.ridx_main_v0 (ix4 b h q k) e = ix4 b h k e :=
  funext fun a => Fin.ext (by match a with | ⟨0, _⟩ => rfl | ⟨1, _⟩ => rfl | ⟨2, _⟩ => rfl | ⟨3, _⟩ => rfl)

private theorem idx_v6_v7 (b : Fin 4) (h : Fin 16) (q k : Fin 2048) :
    Read.idx_main_v6 (Read.idx_main_v7 (ix4 b h q k)) = ix3 b h q :=
  funext fun a => Fin.ext (by match a with | ⟨0, _⟩ => rfl | ⟨1, _⟩ => rfl | ⟨2, _⟩ => rfl)

private theorem idx_v10 (b : Fin 4) (h : Fin 16) (q k : Fin 2048) :
    Read.idx_main_v10 (ix3 b h q) k = ix4 b h q k :=
  funext fun a => Fin.ext (by match a with | ⟨0, _⟩ => rfl | ⟨1, _⟩ => rfl | ⟨2, _⟩ => rfl | ⟨3, _⟩ => rfl)

private theorem idx_v11_v12 (b : Fin 4) (h : Fin 16) (q k : Fin 2048) :
    Read.idx_main_v11 (Read.idx_main_v12 (ix4 b h q k)) = ix3 b h q :=
  funext fun a => Fin.ext (by match a with | ⟨0, _⟩ => rfl | ⟨1, _⟩ => rfl | ⟨2, _⟩ => rfl)

private theorem lidx_v14 (b : Fin 4) (h : Fin 16) (q : Fin 2048) (d : Fin 64) (k : Fin 2048) :
    Read.lidx_main_v14 (ix4 b h q d) k = ix4 b h q k :=
  funext fun a => Fin.ext (by match a with | ⟨0, _⟩ => rfl | ⟨1, _⟩ => rfl | ⟨2, _⟩ => rfl | ⟨3, _⟩ => rfl)

private theorem ridx_v14 (b : Fin 4) (h : Fin 16) (q : Fin 2048) (d : Fin 64) (k : Fin 2048) :
    Read.ridx_main_v14 (ix4 b h q d) k = ix4 b h k d :=
  funext fun a => Fin.ext (by match a with | ⟨0, _⟩ => rfl | ⟨1, _⟩ => rfl | ⟨2, _⟩ => rfl | ⟨3, _⟩ => rfl)

/-! ### The stages, one at a time -/

/-- The scaled score: the reference sums the products first and multiplies by `1/8` after, which is `score`'s form. -/
private theorem score_val (qR kR : SA.Idx → ℝ) (b : Fin 4) (h : Fin 16) (q k : Fin 2048) :
    Read.val_main_v2 (F := Ideal) (fun i => (qR i : EReal)) (fun i => (kR i : EReal)) (ix4 b h q k)
      = ((score (1 / 8) qR kR b h q k : ℝ) : EReal) := by
  rw [Read.val_main_v2_apply, Read.val_main_v0_apply, Read.val_main_v1_apply, Read.val_main_cst_apply,
    Ideal.mulf_def, Ideal.ofBits_def, ofBits_eighth]
  simp only [lidx_v0, ridx_v0]
  unfold score
  rw [EReal.coe_mul, coe_sum]
  simp only [EReal.coe_mul]

/-- Every scaled score is a real. -/
private theorem score_real (qR kR : SA.Idx → ℝ) (i : S4x16x2048x2048.Idx) :
    ∃ r : ℝ, Read.val_main_v2 (F := Ideal) (fun i => (qR i : EReal)) (fun i => (kR i : EReal)) i = (r : EReal) := by
  rw [eq_ix4 i]
  exact ⟨_, score_val qR kR _ _ _ _⟩

/-- The row maximum (taken from `-∞`, then joined with `-∞` once more) is a real: a row has 2048 real scores. -/
private theorem rowmax_real (qR kR : SA.Idx → ℝ) (b : Fin 4) (h : Fin 16) (q : Fin 2048) :
    ∃ rM : ℝ, Read.val_main_v5 (F := Ideal) (fun i => (qR i : EReal)) (fun i => (kR i : EReal)) (ix3 b h q)
      = (rM : EReal) := by
  have hred : S4x16x2048x2048.Reduces [3] S4x16x2048 := by decide
  have hfold : ∃ r : ℝ, Read.val_main_v3 (F := Ideal) (fun i => (qR i : EReal)) (fun i => (kR i : EReal)) (ix3 b h q)
      = (r : EReal) := by
    unfold Read.val_main_v3
    rw [Host.reduce_eq_fold_single FloatOps.maximumf _ _ _ hred _ _, Read.val_main_cst_0_apply, Ideal.ofBits_def,
      ofBits_neg_inf]
    exact fold_max_real _ ⟨⟨0, by decide⟩, Finset.mem_univ _⟩ _ (fun k _ => score_real qR kR _)
  obtain ⟨r, hr⟩ := hfold
  rw [Read.val_main_v5_apply, Read.val_main_v4_apply, Read.val_main_cst_1_apply, Ideal.maximumf_def, Ideal.ofBits_def,
    ofBits_neg_inf, hr]
  exact max_real_right ⊥ bot_ne_top r

/-- A weight: the exponential of the score less the row maximum. -/
private theorem weight_val (qR kR : SA.Idx → ℝ) (b : Fin 4) (h : Fin 16) (q k : Fin 2048) (rM : ℝ)
    (hM : Read.val_main_v5 (F := Ideal) (fun i => (qR i : EReal)) (fun i => (kR i : EReal)) (ix3 b h q) = (rM : EReal)) :
    Read.val_main_v9 (F := Ideal) (fun i => (qR i : EReal)) (fun i => (kR i : EReal)) (ix4 b h q k)
      = ((Real.exp (score (1 / 8) qR kR b h q k - rM) : ℝ) : EReal) := by
  rw [Read.val_main_v9_apply, Read.val_main_v8_apply, score_val, Read.val_main_v7_apply, Read.val_main_v6_apply,
    idx_v6_v7, hM, Ideal.subf_def, Ideal.hostUnary_exp_def, ← EReal.coe_sub, Ideal.exp_coe]

/-- The row sum: `0 +` the sum of the row's weights. -/
private theorem rowsum_val (qR kR : SA.Idx → ℝ) (b : Fin 4) (h : Fin 16) (q : Fin 2048) (rM : ℝ)
    (hM : Read.val_main_v5 (F := Ideal) (fun i => (qR i : EReal)) (fun i => (kR i : EReal)) (ix3 b h q) = (rM : EReal)) :
    Read.val_main_v10 (F := Ideal) (fun i => (qR i : EReal)) (fun i => (kR i : EReal)) (ix3 b h q)
      = ((∑ k : Fin 2048, Real.exp (score (1 / 8) qR kR b h q k - rM) : ℝ) : EReal) := by
  rw [Read.val_main_v10_apply, Read.val_main_cst_2_apply, Ideal.ofBits_def, ofBits_zero, zero_add, coe_sum]
  refine Finset.sum_congr rfl fun k _ => ?_
  rw [idx_v10, weight_val qR kR b h q k rM hM]

/-- A normalised weight: the weight divided by the row sum. -/
private theorem normw_val (qR kR : SA.Idx → ℝ) (b : Fin 4) (h : Fin 16) (q k : Fin 2048) (rM : ℝ)
    (hM : Read.val_main_v5 (F := Ideal) (fun i => (qR i : EReal)) (fun i => (kR i : EReal)) (ix3 b h q) = (rM : EReal)) :
    Read.val_main_v13 (F := Ideal) (fun i => (qR i : EReal)) (fun i => (kR i : EReal)) (ix4 b h q k)
      = Ideal.div ((Real.exp (score (1 / 8) qR kR b h q k - rM) : ℝ) : EReal)
          ((∑ k' : Fin 2048, Real.exp (score (1 / 8) qR kR b h q k' - rM) : ℝ) : EReal) := by
  rw [Read.val_main_v13_apply, weight_val qR kR b h q k rM hM, Read.val_main_v12_apply, Read.val_main_v11_apply,
    idx_v11_v12, rowsum_val qR kR b h q rM hM, Ideal.hostDivf_def]

/-- The reference's result at `(b, h, q, d)`, from real inputs, is the softmax attention there. -/
theorem value (qR kR vR : SA.Idx → ℝ) (b : Fin 4) (h : Fin 16) (q : Fin 2048) (d : Fin 64) :
    Cert.ReferenceIdeal.Read.val_main_v14 (F := Ideal) (fun i => (qR i : EReal)) (fun i => (kR i : EReal))
        (fun i => (vR i : EReal)) (ix4 b h q d)
      = ((attn (1 / 8) qR kR vR b h q d : ℝ) : EReal) := by
  obtain ⟨rM, hM⟩ := rowmax_real qR kR b h q
  have hL : (∑ k : Fin 2048, Real.exp (score (1 / 8) qR kR b h q k - rM)) ≠ 0 :=
    (sum_exp_pos fun k : Fin 2048 => score (1 / 8) qR kR b h q k - rM).ne'
  rw [Read.val_main_v14_apply]
  calc ∑ k : Fin 2048, Read.val_main_v13 (F := Ideal) (fun i => (qR i : EReal)) (fun i => (kR i : EReal))
            (Read.lidx_main_v14 (ix4 b h q d) k) * (fun i => (vR i : EReal)) (Read.ridx_main_v14 (ix4 b h q d) k)
      = ∑ k : Fin 2048, Ideal.div ((Real.exp (score (1 / 8) qR kR b h q k - rM) : ℝ) : EReal)
            ((∑ k' : Fin 2048, Real.exp (score (1 / 8) qR kR b h q k' - rM) : ℝ) : EReal)
          * ((vR (ix4 b h k d) : ℝ) : EReal) :=
        Finset.sum_congr rfl fun k _ => by rw [lidx_v14, ridx_v14, normw_val qR kR b h q k rM hM]
    _ = (((∑ k : Fin 2048, Real.exp (score (1 / 8) qR kR b h q k - rM) * vR (ix4 b h k d))
          / (∑ k : Fin 2048, Real.exp (score (1 / 8) qR kR b h q k - rM)) : ℝ) : EReal) :=
        sum_div_mul (fun k : Fin 2048 => Real.exp (score (1 / 8) qR kR b h q k - rM))
          (fun k : Fin 2048 => vR (ix4 b h k d)) _ hL
    _ = ((attn (1 / 8) qR kR vR b h q d : ℝ) : EReal) := by
        rw [softmax_shift (fun k : Fin 2048 => score (1 / 8) qR kR b h q k) (fun k : Fin 2048 => vR (ix4 b h k d)) rM]
        rfl

end Cert.Attention.Reference

end
-- ==== Proof.LoopState.lean ====
/-
  The kernel's loop over the four key chunks, as a plain recursion on its carried values.

  At one grid point the body loads the query block `x0` whole, then for chunk `k = 0, 1, 2, 3` loads rows
  `512·k … 512·k + 511` of the key block `x1` and of the value block `x2` and replaces the carried
  (maximum, sum, accumulator) by one chunk step of them; after the last chunk it stores accumulator / sum over the
  whole output block. `state x0 x1 x2 n` is the carried triple before chunk `n`; what the body leaves in the output
  block is the quotient of `state x0 x1 x2 4`.
-/
import proofs.«423420_j32263794328206_3_alg».proof.Proof.Gen.KernelIdeal.Frame
import Idealize.ShloMosaic.Lib.Pipeline.Value

set_option maxRecDepth 16384

noncomputable section

namespace Cert.Attention.Loop

open Idealize.ShloMosaic Idealize.ShloMosaic.TcCoe Idealize.ShloMosaic.Tactic
open Idealize.SL Idealize.SL.Sem
open Cert.KernelIdeal Cert.KernelIdeal.Gen

variable {F : FTy → Type} [FloatOps F]

/-- The carried values: running maximum and sum per query row, accumulator per row and column. -/
abbrev Carried (F : FTy → Type) : Type := FVec F S1024x1 .f32 × FVec F S1024x1 .f32 × FVec F S1024x64 .f32

/-- Rows `512·k … 512·k + 511` of a key or value block. -/
def chunk (X : Vec F S1x2048x64 .f32) (k : Fin k0_t1_loop.trips) : Vec F S1x512x64 .f32 :=
  View.ld X (Rect.unit (s := S1x2048x64) (k0_off1 k) S1x512x64.size (k0_off1_inb k))

/-- One chunk step of the carried values. -/
def step (x0 : Vec F S1x1024x64 .f32) (x1 x2 : Vec F S1x2048x64 .f32) (k : Fin k0_t1_loop.trips) (s : Carried F) :
    Carried F :=
  (k0_pay5 x0 s.1 (chunk x1 k), k0_pay8 x0 s.1 s.2.1 (chunk x1 k), k0_pay9 x0 s.1 s.2.2 (chunk x1 k) (chunk x2 k))

/-- The carried values before chunk `n`. -/
def state (x0 : Vec F S1x1024x64 .f32) (x1 x2 : Vec F S1x2048x64 .f32) : ℕ → Carried F
  | 0 => (k0_pay1, k0_pay2, k0_pay3)
  | n + 1 => if h : n < k0_t1_loop.trips then step x0 x1 x2 ⟨n, h⟩ (state x0 x1 x2 n) else state x0 x1 x2 n

theorem state_succ (x0 : Vec F S1x1024x64 .f32) (x1 x2 : Vec F S1x2048x64 .f32) (k : Fin k0_t1_loop.trips) :
    state x0 x1 x2 (k.val + 1) = step x0 x1 x2 k (state x0 x1 x2 k.val) := by
  rw [state]; exact dif_pos k.isLt

theorem hz3 : (![0, 0, 0] : Fin 3 → Nat) = fun _ => 0 := funext fun a => by fin_cases a <;> rfl

/-- One trip of the loop, opened once: it yields the chunk step of what it was given, the chunk being what the two
    loads read of the key and value buffers. -/
theorem trip_eq (𝒱 : Variants) (c : Dev nD) (bd : Option 𝒱.V) (i : grid0.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x64 .f32) (harg5 : arg5.IsWhole)
    (x0 : Vec F S1x1024x64 .f32) (x1 x2 : Vec F S1x2048x64 .f32) (k : Fin k0_t1_loop.trips) (acc : Carried F) :
    tripR_k0_t1 (F := F) 𝒱 c bd i arg2 harg2 arg3 harg3 arg4 harg4 arg5 harg5 x0 (harg3.unread x1) (harg4.unread x2) k acc
      = step x0 x1 x2 k acc := by
  unfold tripR_k0_t1 trip_k0_t1 step chunk
  dsimp only
  simp only [View.readAt_eq_ld, harg3.read_unread, harg4.read_unread]

/-- The loop's carried values before trip `n` are `state … n`. -/
theorem st_eq_state (𝒱 : Variants) (c : Dev nD) (bd : Option 𝒱.V) (i : grid0.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x64 .f32) (harg5 : arg5.IsWhole)
    (x0 : Vec F S1x1024x64 .f32) (x1 x2 : Vec F S1x2048x64 .f32) (n : ℕ) :
    st_k0_t1 (F := F) 𝒱 c bd i arg2 harg2 arg3 harg3 arg4 harg4 arg5 harg5 x0 (harg3.unread x1) (harg4.unread x2)
        (k0_pay1, k0_pay2, k0_pay3) n
      = state x0 x1 x2 n := by
  induction n with
  | zero => rfl
  | succ n ih =>
    rw [st_k0_t1.eq_2, state]
    unfold st_k0_t1Step
    by_cases h : n < k0_t1_loop.trips
    · rw [dif_pos h, dif_pos h, ih]
      exact trip_eq 𝒱 c bd i arg2 harg2 arg3 harg3 arg4 harg4 arg5 harg5 x0 x1 x2 ⟨n, h⟩ _
    · rw [dif_neg h, dif_neg h, ih]

/-- The loop makes four trips. -/
theorem trips_eq : k0_t1_loop.trips = 4 := by decide

/-- What the body leaves in the output block: the accumulator over the sum, after the four chunks. -/
theorem out_eq (c : Dev nD) (i : grid0.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x64 .f32) (harg5 : arg5.IsWhole)
    (x0 : Vec F S1x1024x64 .f32) (x1 x2 : Vec F S1x2048x64 .f32) :
    out0_A_3 c i arg2 harg2 arg3 harg3 arg4 harg4 arg5 harg5 x0 x1 x2
      = k0_pay10 (state x0 x1 x2 4).2.1 (state x0 x1 x2 4).2.2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero hz3]
  simp only [View.readAt_eq_ld, harg2.read_unread, View.ld_unit_zero (S := S1x1024x64) hz3]
  rw [st_eq_state]
  rfl

end Cert.Attention.Loop

end
-- ==== Proof.ChunkStep.lean ====
/-
  One chunk of the kernel's running softmax, read at an index, on the extended reals.

  For a block of 1024 query rows `x` (row `p`, column `e`), a chunk of 512 key rows `kc` and value rows `vc`, and the
  carried running maximum `m`, sum `l` and accumulator `a`:
    scores   `S p j = ∑ e, (x p e · 1/8) · kc j e`                       (a matrix product into a zero accumulator),
    new max  `m' p = max (m p) (max over j of S p j, from -∞)`,
    factor   `α p = exp (m p - m' p)`,    weights `P p j = exp (S p j - m' p)`,
    new sum  `l' p = α p · l p + ∑ j, P p j`,
    new acc  `a' p d = α p · a p d + ∑ j, P p j · vc j d`              (a second matrix product),
  and after the last chunk the result `a p d / l p`.
  A change of float format is the identity here, so the bf16 casts in front of the matrix products do nothing.
-/
import proofs.«423420_j32263794328206_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Attention.Chunk

open Idealize.ShloMosaic Idealize.ShloMosaic.ValueIdx Cert.KernelIdeal Cert.KernelIdeal.Gen

variable [Cert.KernelIdeal.Facts]

/-! ## Two layout readings: a column kept as a trailing unit axis -/

/-- An `[a]` array cast to the column `[a, 1]` reads, at `(p, u)`, the operand at `p`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row index `p` of a `[1024]` lane reduction of a `[1024, 512]` array, with the coordinate `j` put back on the reduced
axis, is `(p, j)`. -/
private theorem lift_row (p : Fin 1024) (j : Fin 512) :
    Shape.Reduces.lift (s := S1024x512) (t := S1024) (a := 1) Facts₀.reduces_S1024x512_S1024 (ix1 p) j = ix2 p j :=
  funext fun c => Fin.ext (by
    match c with
    | ⟨0, _⟩ => rfl
    | ⟨1, _⟩ => rfl)

/-! ## The operand indices of the two matrix products

Both products contract the left operand's axis 1 with the right operand's axis 0; at output index `i` and contraction
index `q` the left operand is read at `(i 0, q)` and the right at `(q, i 1)`. One fact per operand axis. -/

private theorem lhs_scores_0 (i : S1024x512.Idx) (q : dot_S1024x64_S64x512_S1024x512_1_0_0_1_n_n.contr.Idx) :
    (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
private theorem lhs_scores_1 (i : S1024x512.Idx) (q : dot_S1024x64_S64x512_S1024x512_1_0_0_1_n_n.contr.Idx) :
    (dot_S1024x64_S64x512_S1024x512_1_0_0_1_n_n.lhsIdx i q 1).val = (q ⟨0, by decide⟩).val :=
  dot_S1024x64_S64x512_S1024x512_1_0_0_1_n_n.lhsIdx_val_of_single rfl i q
private theorem rhs_scores_0 (i : S1024x512.Idx) (q : dot_S1024x64_S64x512_S1024x512_1_0_0_1_n_n.contr.Idx) :
    (dot_S1024x64_S64x512_S1024x512_1_0_0_1_n_n.rhsIdx i q 0).val = (q ⟨0, by decide⟩).val :=
  dot_S1024x64_S64x512_S1024x512_1_0_0_1_n_n.rhsIdx_val_of_single rfl i q
private theorem rhs_scores_1 (i : S1024x512.Idx) (q : dot_S1024x64_S64x512_S1024x512_1_0_0_1_n_n.contr.Idx) :
    (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

private theorem lhs_acc_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
private theorem lhs_acc_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
private theorem rhs_acc_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
private theorem rhs_acc_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The scores of a chunk: row `p` of the scaled queries against key row `j`. -/
theorem scores_apply (x : Vec Ideal S1x1024x64 .f32) (kc : Vec Ideal S1x512x64 .f32) (p : Fin 1024) (j : Fin 512) :
    k0_pay4 (F := Ideal) x kc (ix2 p j)
      = ∑ e : Fin 64, (x (ix3 (0 : Fin 1) p e) * Ideal.ofBits .f32 0x3E000000#32) * kc (ix3 (0 : Fin 1) j e) := by
  unfold k0_pay4
  refine (Ideal.matmul_constant_zero_apply _ none _ _ _).trans ?_
  rw [← Equiv.sum_comp (ValueIdx.contrEquiv1 dot_S1024x64_S64x512_S1024x512_1_0_0_1_n_n 64 rfl rfl).symm]
  refine Finset.sum_congr rfl fun k _ => ?_
  have hk := ValueIdx.contrEquiv1_symm_val dot_S1024x64_S64x512_S1024x512_1_0_0_1_n_n 64 rfl rfl k
  have el : dot_S1024x64_S64x512_S1024x512_1_0_0_1_n_n.lhsIdx (ix2 p j) ((ValueIdx.contrEquiv1 dot_S1024x64_S64x512_S1024x512_1_0_0_1_n_n 64 rfl rfl).symm k) = ix2 p k := funext fun c => Fin.ext (by
    match c with
    | ⟨0, _⟩ => exact lhs_scores_0 _ _
    | ⟨1, _⟩ => exact (lhs_scores_1 _ _).trans hk)
  have er : dot_S1024x64_S64x512_S1024x512_1_0_0_1_n_n.rhsIdx (ix2 p j) ((ValueIdx.contrEquiv1 dot_S1024x64_S64x512_S1024x512_1_0_0_1_n_n 64 rfl rfl).symm k) = ix2 k j := funext fun c => Fin.ext (by
    match c with
    | ⟨0, _⟩ => exact (rhs_scores_0 _ _).trans hk
    | ⟨1, _⟩ => exact rhs_scores_1 _ _)
  rw [el, er]
  refine congrArg₂ (· * ·) ?_ ?_
  · exact congrArg (· * Ideal.ofBits .f32 0x3E000000#32) (shapeCast_1ab_ab_apply x _ p k)
  · refine (transpose_ix2_apply _ _ k j).trans ?_
    exact shapeCast_1ab_ab_apply kc _ j k

/-- The new running maximum of row `p`. -/
theorem newmax_apply (x : Vec Ideal S1x1024x64 .f32) (m : FVec Ideal S1024x1 .f32) (kc : Vec Ideal S1x512x64 .f32)
    (p : Fin 1024) :
    k0_pay5 (F := Ideal) x m kc (ix2 p (0 : Fin 1))
      = max (m (ix2 p (0 : Fin 1)))
          ((Finset.univ : Finset (Fin 512)).fold max (Ideal.ofBits .f32 0xFF800000#32)
            (fun j => k0_pay4 (F := Ideal) x kc (ix2 p j))) := by
  unfold k0_pay5
  refine congrArg (max (m (ix2 p (0 : Fin 1)))) ?_
  refine (shapeCast_a_a1_apply _ _ p (0 : Fin 1)).trans ?_
  refine (Ideal.multiReduction_maximumf_single (k0_pay4 (F := Ideal) x kc) _ _ _ _ (ix1 p)).trans ?_
  exact congrArg (fun f => (Finset.univ : Finset (Fin 512)).fold max (Ideal.ofBits .f32 0xFF800000#32) f)
    (funext fun j => congrArg (k0_pay4 (F := Ideal) x kc) (lift_row p j))

/-- The rescaling factor of row `p`. -/
theorem factor_apply (x : Vec Ideal S1x1024x64 .f32) (m : FVec Ideal S1024x1 .f32) (kc : Vec Ideal S1x512x64 .f32)
    (p : Fin 1024) :
    k0_pay6 (F := Ideal) x m kc (ix2 p (0 : Fin 1))
      = Ideal.exp (m (ix2 p (0 : Fin 1)) - k0_pay5 (F := Ideal) x m kc (ix2 p (0 : Fin 1))) := by
  unfold k0_pay6
  rfl

/-- The weight of key `j` in row `p`. -/
theorem weights_apply (x : Vec Ideal S1x1024x64 .f32) (m : FVec Ideal S1024x1 .f32) (kc : Vec Ideal S1x512x64 .f32)
    (p : Fin 1024) (j : Fin 512) :
    k0_pay7 (F := Ideal) x m kc (ix2 p j)
      = Ideal.exp (k0_pay4 (F := Ideal) x kc (ix2 p j) - k0_pay5 (F := Ideal) x m kc (ix2 p (0 : Fin 1))) := by
  unfold k0_pay7
  exact congrArg (fun t => Ideal.exp (k0_pay4 (F := Ideal) x kc (ix2 p j) - t))
    (broadcastTo_a1_ab_apply (k0_pay5 (F := Ideal) x m kc) _ p j)

/-- The new running sum of row `p`. -/
theorem newsum_apply (x : Vec Ideal S1x1024x64 .f32) (m l : FVec Ideal S1024x1 .f32) (kc : Vec Ideal S1x512x64 .f32)
    (p : Fin 1024) :
    k0_pay8 (F := Ideal) x m l kc (ix2 p (0 : Fin 1))
      = k0_pay6 (F := Ideal) x m kc (ix2 p (0 : Fin 1)) * l (ix2 p (0 : Fin 1))
          + ∑ j : Fin 512, k0_pay7 (F := Ideal) x m kc (ix2 p j) := by
  unfold k0_pay8
  refine congrArg (k0_pay6 (F := Ideal) x m kc (ix2 p (0 : Fin 1)) * l (ix2 p (0 : Fin 1)) + ·) ?_
  refine (shapeCast_a_a1_apply _ _ p (0 : Fin 1)).trans ?_
  refine (Ideal.multiReduction_add_single (k0_pay7 (F := Ideal) x m kc) _ _ _ _ (ix1 p)).trans ?_
  exact Finset.sum_congr rfl fun j _ => congrArg (k0_pay7 (F := Ideal) x m kc) (lift_row p j)

/-- The new accumulator at row `p`, column `d`. -/
theorem newacc_apply (x : Vec Ideal S1x1024x64 .f32) (m : FVec Ideal S1024x1 .f32) (a : FVec Ideal S1024x64 .f32)
    (kc vc : Vec Ideal S1x512x64 .f32) (p : Fin 1024) (d : Fin 64) :
    k0_pay9 (F := Ideal) x m a kc vc (ix2 p d)
      = k0_pay6 (F := Ideal) x m kc (ix2 p (0 : Fin 1)) * a (ix2 p d)
          + ∑ j : Fin 512, k0_pay7 (F := Ideal) x m kc (ix2 p j) * vc (ix3 (0 : Fin 1) j d) := by
  unfold k0_pay9
  refine congrArg₂ (· + ·) ?_ ?_
  · exact congrArg (· * a (ix2 p d)) (broadcastTo_a1_ab_apply (k0_pay6 (F := Ideal) x m kc) _ p d)
  refine (Ideal.matmul_constant_zero_apply _ none _ _ _).trans ?_
  rw [← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 p d) ((ValueIdx.contrEquiv1 dot_S1024x512_S512x64_S1024x64_1_0_0_1_n_n 512 rfl rfl).symm k) = ix2 p k := funext fun c => Fin.ext (by
    match c with
    | ⟨0, _⟩ => exact lhs_acc_0 _ _
    | ⟨1, _⟩ => exact (lhs_acc_1 _ _).trans hk)
  have er : dot_S1024x512_S512x64_S1024x64_1_0_0_1_n_n.rhsIdx (ix2 p d) ((ValueIdx.contrEquiv1 dot_S1024x512_S512x64_S1024x64_1_0_0_1_n_n 512 rfl rfl).symm k) = ix2 k d := funext fun c => Fin.ext (by
    match c with
    | ⟨0, _⟩ => exact (rhs_acc_0 _ _).trans hk
    | ⟨1, _⟩ => exact rhs_acc_1 _ _)
  rw [el, er]
  exact congrArg (k0_pay7 (F := Ideal) x m kc (ix2 p k) * ·) (shapeCast_1ab_ab_apply vc _ k d)

/-- The result after the last chunk: the accumulator over the sum. -/
theorem result_apply (l : FVec Ideal S1024x1 .f32) (a : FVec Ideal S1024x64 .f32) (p : Fin 1024) (d : Fin 64) :
    k0_pay10 (F := Ideal) l a (ix3 (0 : Fin 1) p d) = Ideal.div (a (ix2 p d)) (l (ix2 p (0 : Fin 1))) := by
  unfold k0_pay10
  refine (shapeCast_ab_1ab_apply _ _ (0 : Fin 1) p d).trans ?_
  exact congrArg (Ideal.div (a (ix2 p d))) (broadcastTo_a1_ab_apply l _ p d)

/-- The three values the loop starts from: `-∞`, `0`, `0`. -/
theorem init_max_apply (i : S1024x1.Idx) : k0_pay1 (F := Ideal) i = Ideal.ofBits .f32 0xFF800000#32 := rfl
theorem init_sum_apply (i : S1024x1.Idx) : k0_pay2 (F := Ideal) i = Ideal.ofBits .f32 0x00000000#32 := rfl
theorem init_acc_apply (i : S1024x64.Idx) : k0_pay3 (F := Ideal) i = Ideal.ofBits .f32 0x00000000#32 := rfl

end Cert.Attention.Chunk

end
-- ==== Proof.KeyChunks.lean ====
/-
  The 2048 key rows as four chunks of 512: row `j` of chunk `c` is key row `512·c + j`, and sums over the keys of the
  first chunks add up chunk by chunk to the sum over all keys.
-/
import Mathlib.Algebra.BigOperators.Fin
import Mathlib.Algebra.BigOperators.Intervals
import Mathlib.Data.Real.Basic

noncomputable section

namespace Cert.Attention

/-! ### Keys in chunks of 512 -/

/-- Key row `512 · c + j`: row `j` of chunk `c` (total in `c`, by reducing modulo the 2048 rows: chunks 0 to 3 are
    not affected). -/
def keyIdx (c : ℕ) (j : Fin 512) : Fin 2048 := ⟨(512 * c + j.val) % 2048, Nat.mod_lt _ (by norm_num)⟩

theorem keyIdx_val (c : ℕ) (hc : c < 4) (j : Fin 512) : (keyIdx c j).val = 512 * c + j.val := by
  have hj := j.isLt
  show (512 * c + j.val) % 2048 = 512 * c + j.val
  exact Nat.mod_eq_of_lt (by omega)

/-- The keys of the first `n + 1` chunks are those of the first `n` and chunk `n`. -/
theorem sum_chunks_succ (f : ℕ × Fin 512 → ℝ) (n : ℕ) :
    ∑ x ∈ Finset.range (n + 1) ×ˢ (Finset.univ : Finset (Fin 512)), f x
      = ∑ x ∈ Finset.range n ×ˢ (Finset.univ : Finset (Fin 512)), f x + ∑ j : Fin 512, f (n, j) := by
  rw [Finset.sum_product, Finset.sum_product, Finset.sum_range_succ]

/-- Four chunks of 512 are the 2048 keys. -/
theorem sum_chunks_all (g : Fin 2048 → ℝ) :
    ∑ x ∈ Finset.range 4 ×ˢ (Finset.univ : Finset (Fin 512)), g (keyIdx x.1 x.2) = ∑ k : Fin 2048, g k := by
  -- key `k` is row `k % 512` of chunk `k / 512`
  refine Finset.sum_nbij' (fun x => keyIdx x.1 x.2)
    (fun k => (k.val / 512, (⟨k.val % 512, Nat.mod_lt _ (by norm_num)⟩ : Fin 512))) ?_ ?_ ?_ ?_ ?_
  · intro x _
    exact Finset.mem_univ _
  · intro k _
    have hk := k.isLt
    rw [Finset.mem_product, Finset.mem_range]
    exact ⟨by show k.val / 512 < 4; omega, Finset.mem_univ _⟩
  · rintro ⟨c, j⟩ hx
    rw [Finset.mem_product, Finset.mem_range] at hx
    have hc : c < 4 := hx.1
    have hj := j.isLt
    have hv := keyIdx_val c hc j
    refine Prod.ext ?_ (Fin.ext ?_)
    · show (keyIdx c j).val / 512 = c
      omega
    · show (keyIdx c j).val % 512 = j.val
      omega
  · intro k _
    have hk := k.isLt
    refine Fin.ext ?_
    rw [keyIdx_val _ (by show k.val / 512 < 4; omega)]
    show 512 * (k.val / 512) + k.val % 512 = k.val
    omega
  · intro x _
    rfl

end Cert.Attention

end
-- ==== Proof.RowInvariant.lean ====
/-
  What the loop's carried values are, row by row, when the blocks hold reals.

  Fix a query row `p` of the block and write `s r` for its scaled score against key row `r` of the key block.
  Before chunk `n` (so after the keys `r < 512·n`) the carried maximum `m` is below `+∞`, and a real as soon as
  `n > 0`; the carried sum is `∑ exp (s r - m)` over the keys seen; the carried accumulator at column `d` is
  `∑ exp (s r - m) · v r d` over them. One chunk step keeps this (`rescale_add`), and it starts true with nothing
  seen: maximum `-∞`, both sums empty. After the fourth chunk the keys seen are all 2048, and the stored quotient is
  the softmax-weighted average of the value rows — the shift drops out.
-/
import proofs.«423420_j32263794328206_3_alg».proof.Proof.LoopState
import proofs.«423420_j32263794328206_3_alg».proof.Proof.ChunkStep
import proofs.«423420_j32263794328206_3_alg».proof.Proof.LibRunningSoftmax
import proofs.«423420_j32263794328206_3_alg».proof.Proof.KeyChunks
import proofs.«423420_j32263794328206_3_alg».proof.Proof.AttentionFunction

set_option maxRecDepth 16384

noncomputable section

namespace Cert.Attention.Loop

open Idealize.ShloMosaic Idealize.ShloMosaic.ValueIdx
open Cert.KernelIdeal Cert.KernelIdeal.Gen Cert.Attention Cert.Attention.Chunk

/-- Row `j` of chunk `k` of a key or value block is row `512·k + j` of the block. -/
theorem chunk_apply {F : FTy → Type} [FloatOps F] (X : Vec F S1x2048x64 .f32) (k : Fin k0_t1_loop.trips) (j : Fin 512) (e : Fin 64) :
    chunk X k (ix3 (0 : Fin 1) j e) = X (ix3 (0 : Fin 1) (keyIdx k.val j) e) := by
  have hk : k.val < 4 := Nat.lt_of_lt_of_le k.isLt (le_of_eq trips_eq)
  have ho := k0_off1_eq k
  have hkey := keyIdx_val k.val hk j
  unfold chunk
  show X ((Rect.unit (s := S1x2048x64) (k0_off1 k) S1x512x64.size (k0_off1_inb k)).idx (ix3 (0 : Fin 1) j e)) = _
  congr 1
  funext a
  apply Fin.ext
  match a with
  | ⟨0, _⟩ => show (k0_off1 k) 0 + 1 * 0 = 0; rw [ho]; rfl
  | ⟨1, _⟩ => show (k0_off1 k) 1 + 1 * j.val = (keyIdx k.val j).val; rw [ho, hkey]; show 512 * k.val + 1 * j.val = _; omega
  | ⟨2, _⟩ => show (k0_off1 k) 2 + 1 * e.val = e.val; rw [ho]; show 0 + 1 * e.val = e.val; omega

section Row

variable (xq : S1x1024x64.Idx → ℝ) (xk xv : S1x2048x64.Idx → ℝ)

/-- The blocks, read in the extended reals. -/
abbrev bq : Vec Ideal S1x1024x64 .f32 := fun y => (xq y : EReal)
abbrev bk : Vec Ideal S1x2048x64 .f32 := fun y => (xk y : EReal)
abbrev bv : Vec Ideal S1x2048x64 .f32 := fun y => (xv y : EReal)

/-- The scaled score of the block's query row `p` against its key row `r`. -/
def rowScore (p : Fin 1024) (r : Fin 2048) : ℝ :=
  (∑ e : Fin 64, xq (ix3 (0 : Fin 1) p e) * xk (ix3 (0 : Fin 1) r e)) * (1 / 8)

/-- A chunk's scores are reals: the row scores at the chunk's keys. -/
theorem scores_real (k : Fin k0_t1_loop.trips) (p : Fin 1024) (j : Fin 512) :
    k0_pay4 (F := Ideal) (bq xq) (chunk (bk xk) k) (ix2 p j) = ((rowScore xq xk p (keyIdx k.val j) : ℝ) : EReal) := by
  rw [scores_apply]
  simp only [chunk_apply, ofBits_eighth, ← EReal.coe_mul]
  rw [← coe_sum, sum_scaled_mul]
  rfl

/-- What the carried values `S` are at row `p` when they are the values before chunk `n`. -/
structure RowInv (n : ℕ) (p : Fin 1024) (S : Carried Ideal) : Prop where
  ne_top : S.1 (ix2 p (0 : Fin 1)) ≠ ⊤
  real : 0 < n → ∃ r : ℝ, S.1 (ix2 p (0 : Fin 1)) = (r : EReal)
  sum : S.2.1 (ix2 p (0 : Fin 1))
      = ((∑ x ∈ Finset.range n ×ˢ (Finset.univ : Finset (Fin 512)),
          Real.exp (rowScore xq xk p (keyIdx x.1 x.2) - (S.1 (ix2 p (0 : Fin 1))).toReal) : ℝ) : EReal)
  acc : ∀ d : Fin 64, S.2.2 (ix2 p d)
      = ((∑ x ∈ Finset.range n ×ˢ (Finset.univ : Finset (Fin 512)),
          Real.exp (rowScore xq xk p (keyIdx x.1 x.2) - (S.1 (ix2 p (0 : Fin 1))).toReal)
            * xv (ix3 (0 : Fin 1) (keyIdx x.1 x.2) d) : ℝ) : EReal)

/-- Nothing seen yet: maximum `-∞`, sum and accumulator zero. -/
theorem rowInv_zero (p : Fin 1024) : RowInv xq xk xv 0 p (k0_pay1, k0_pay2, k0_pay3) where
  ne_top := by
    show k0_pay1 (F := Ideal) (ix2 p (0 : Fin 1)) ≠ ⊤
    rw [init_max_apply, ofBits_neg_inf]; exact bot_ne_top
  real := fun h => absurd h (lt_irrefl 0)
  sum := by
    show k0_pay2 (F := Ideal) (ix2 p (0 : Fin 1)) = _
    rw [init_sum_apply, ofBits_zero]
    simp
  acc := fun d => by
    show k0_pay3 (F := Ideal) (ix2 p d) = _
    rw [init_acc_apply, ofBits_zero]
    simp

/-- One chunk step keeps the row's invariant, whatever carried values have it. -/
theorem rowInv_step (n : ℕ) (hlt : n < k0_t1_loop.trips) (p : Fin 1024) (S : Carried Ideal) (ih : RowInv xq xk xv n p S) :
    RowInv xq xk xv (n + 1) p (step (bq xq) (bk xk) (bv xv) ⟨n, hlt⟩ S) := by
  -- the chunk's maximum is a real, hence so is the new running maximum
  obtain ⟨μ, hμ⟩ := fold_max_real (Finset.univ : Finset (Fin 512)) Finset.univ_nonempty
    (fun j => k0_pay4 (F := Ideal) (bq xq) (chunk (bk xk) ⟨n, hlt⟩) (ix2 p j))
    (fun j _ => ⟨_, scores_real xq xk ⟨n, hlt⟩ p j⟩)
  obtain ⟨r', hr'⟩ := max_real_right (S.1 (ix2 p (0 : Fin 1))) ih.ne_top μ
  have hmax : k0_pay5 (F := Ideal) (bq xq) S.1 (chunk (bk xk) ⟨n, hlt⟩) (ix2 p (0 : Fin 1)) = (r' : EReal) := by
    rw [newmax_apply, ofBits_neg_inf, hμ, hr']
  have hfac : k0_pay6 (F := Ideal) (bq xq) S.1 (chunk (bk xk) ⟨n, hlt⟩) (ix2 p (0 : Fin 1))
      = Ideal.exp (S.1 (ix2 p (0 : Fin 1)) - (r' : EReal)) := by
    rw [factor_apply, hmax]
  have hw : ∀ j : Fin 512, k0_pay7 (F := Ideal) (bq xq) S.1 (chunk (bk xk) ⟨n, hlt⟩) (ix2 p j)
      = Ideal.exp (((rowScore xq xk p (keyIdx n j) : ℝ) : EReal) - (r' : EReal)) := by
    intro j
    rw [weights_apply, hmax, scores_real]
  have hm : (Finset.range n ×ˢ (Finset.univ : Finset (Fin 512))).Nonempty → ∃ r : ℝ, S.1 (ix2 p (0 : Fin 1)) = (r : EReal) := by
    rintro ⟨x, hx⟩
    rw [Finset.mem_product, Finset.mem_range] at hx
    exact ih.real (Nat.lt_of_le_of_lt (Nat.zero_le _) hx.1)
  have h1 : (step (bq xq) (bk xk) (bv xv) ⟨n, hlt⟩ S).1 (ix2 p (0 : Fin 1)) = (r' : EReal) := hmax
  refine ⟨?_, ?_, ?_, ?_⟩
  · rw [h1]; exact EReal.coe_ne_top r'
  · exact fun _ => ⟨r', h1⟩
  · rw [h1, EReal.toReal_coe, sum_chunks_succ (fun x => Real.exp (rowScore xq xk p (keyIdx x.1 x.2) - r')) n]
    show k0_pay8 (F := Ideal) (bq xq) S.1 S.2.1 (chunk (bk xk) ⟨n, hlt⟩) (ix2 p (0 : Fin 1)) = _
    rw [newsum_apply, hfac, ih.sum]
    simp only [hw]
    have key := rescale_add_one (Finset.range n ×ˢ (Finset.univ : Finset (Fin 512)))
      (fun x => rowScore xq xk p (keyIdx x.1 x.2)) (fun j => rowScore xq xk p (keyIdx n j)) (S.1 (ix2 p (0 : Fin 1))) r' hm
    exact key
  · intro d
    rw [h1, EReal.toReal_coe, sum_chunks_succ (fun x => Real.exp (rowScore xq xk p (keyIdx x.1 x.2) - r') * xv (ix3 (0 : Fin 1) (keyIdx x.1 x.2) d)) n]
    show k0_pay9 (F := Ideal) (bq xq) S.1 S.2.2 (chunk (bk xk) ⟨n, hlt⟩) (chunk (bv xv) ⟨n, hlt⟩) (ix2 p d) = _
    rw [newacc_apply, hfac, ih.acc d]
    simp only [hw, chunk_apply]
    have key := rescale_add (Finset.range n ×ˢ (Finset.univ : Finset (Fin 512)))
      (fun x => rowScore xq xk p (keyIdx x.1 x.2)) (fun x => xv (ix3 (0 : Fin 1) (keyIdx x.1 x.2) d))
      (fun j => rowScore xq xk p (keyIdx n j)) (fun j => xv (ix3 (0 : Fin 1) (keyIdx n j) d)) (S.1 (ix2 p (0 : Fin 1))) r' hm
    exact key

/-- The invariant before every chunk, and after the last. -/
theorem rowInv (n : ℕ) (hn : n ≤ 4) (p : Fin 1024) : RowInv xq xk xv n p (state (bq xq) (bk xk) (bv xv) n) := by
  induction n with
  | zero => exact rowInv_zero xq xk xv p
  | succ n ih =>
    have hlt : n < k0_t1_loop.trips := by rw [trips_eq]; exact Nat.lt_of_succ_le hn
    have hs : state (bq xq) (bk xk) (bv xv) (n + 1) = step (bq xq) (bk xk) (bv xv) ⟨n, hlt⟩ (state (bq xq) (bk xk) (bv xv) n) :=
      state_succ (bq xq) (bk xk) (bv xv) ⟨n, hlt⟩
    rw [hs]
    exact rowInv_step xq xk xv n hlt p _ (ih (Nat.le_of_succ_le hn))

/-- What the body stores at row `p`, column `d` of the output block: the softmax-weighted average of column `d` of the
    value block's rows, the weights the exponentials of row `p`'s scores. -/
theorem result_real (p : Fin 1024) (d : Fin 64) :
    k0_pay10 (F := Ideal) (state (bq xq) (bk xk) (bv xv) 4).2.1 (state (bq xq) (bk xk) (bv xv) 4).2.2 (ix3 (0 : Fin 1) p d)
      = (((∑ r : Fin 2048, Real.exp (rowScore xq xk p r) * xv (ix3 (0 : Fin 1) r d))
          / (∑ r : Fin 2048, Real.exp (rowScore xq xk p r)) : ℝ) : EReal) := by
  have inv := rowInv xq xk xv 4 (le_refl 4) p
  obtain ⟨rr, hrr⟩ := inv.real (by norm_num)
  have hsum := inv.sum
  have hacc := inv.acc d
  rw [hrr, EReal.toReal_coe] at hsum hacc
  rw [sum_chunks_all (fun r => Real.exp (rowScore xq xk p r - rr))] at hsum
  rw [sum_chunks_all (fun r => Real.exp (rowScore xq xk p r - rr) * xv (ix3 (0 : Fin 1) r d))] at hacc
  rw [result_apply, hsum, hacc,
    div_coe_coe _ _ (sum_exp_pos (fun r : Fin 2048 => rowScore xq xk p r - rr)).ne',
    softmax_shift (fun r : Fin 2048 => rowScore xq xk p r) (fun r => xv (ix3 (0 : Fin 1) r d)) rr]

end Row

end Cert.Attention.Loop

end
-- ==== Proof.EntryBlocks.lean ====
/-
  The arrays as the region finds them, and the blocks the body is given at a grid point.

  Before the region each `[4, 16, 2048, 64]` argument is viewed `[64, 2048, 64]`: head `x = 16·b + h` of the view is
  head `h` of batch `b`, rows and columns unchanged (the two positions in row-major order agree).
  Grid point `t` of the `64 × 2` grid is head `t / 2`, query tile `t % 2`: the query block is rows
  `1024·(t % 2) … + 1023` of that head, the key and value blocks are the head's 2048 rows whole.
-/
import proofs.«423420_j32263794328206_3_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal

set_option maxRecDepth 16384

noncomputable section

namespace Cert.Attention.Kernel

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

/-- Batch and head of a head index of the `[64, 2048, 64]` view, and back. -/
def batchOf (x : Fin 64) : Fin 4 := ⟨x.val / 16, by have := x.isLt; omega⟩
def headIn (x : Fin 64) : Fin 16 := ⟨x.val % 16, Nat.mod_lt _ (by norm_num)⟩
def headOf (b : Fin 4) (h : Fin 16) : Fin 64 := ⟨16 * b.val + h.val, by have := b.isLt; have := h.isLt; omega⟩

/-- The head and the first query row of grid point `t`. -/
def pointHead (t : Fin cfg0.N) : Fin 64 := ⟨t.val / 2, by have h : t.val < 128 := Nat.lt_of_lt_of_le t.isLt (le_of_eq N_0); omega⟩
def pointRow (t : Fin cfg0.N) (p : Fin 1024) : Fin 2048 := ⟨1024 * (t.val % 2) + p.val, by have := p.isLt; omega⟩

variable (m : (ℓ : Loc nD τ sig) → Buf (Elt Ideal) ℓ)

/-- The array the region finds at `main_v0` is the host's reshape of `main_arg0`. -/
private theorem V_v0 (c : Dev nD) :
    (V m c main_v0 : S64x2048x64.Idx → EReal)
      = shapeCast S64x2048x64 (m ((c.tc : Thread nD τ).loc main_arg0) : S4x16x2048x64.Idx → EReal)
          shapeCasts_S4x16x2048x64_S64x2048x64 := by
  show StableHlo.after hostOps0 (fun b => m (c, b)) (Proc.devRef .tc main_v0) = _
  after_results
  rfl

/-- The array the region finds at `main_v1` is the host's reshape of `main_arg1`. -/
private theorem V_v1 (c : Dev nD) :
    (V m c main_v1 : S64x2048x64.Idx → EReal)
      = shapeCast S64x2048x64 (m ((c.tc : Thread nD τ).loc main_arg1) : S4x16x2048x64.Idx → EReal)
          shapeCasts_S4x16x2048x64_S64x2048x64 := by
  show StableHlo.after hostOps0 (fun b => m (c, b)) (Proc.devRef .tc main_v1) = _
  after_results
  rfl

/-- The array the region finds at `main_v2` is the host's reshape of `main_arg2`. -/
private theorem V_v2 (c : Dev nD) :
    (V m c main_v2 : S64x2048x64.Idx → EReal)
      = shapeCast S64x2048x64 (m ((c.tc : Thread nD τ).loc main_arg2) : S4x16x2048x64.Idx → EReal)
          shapeCasts_S4x16x2048x64_S64x2048x64 := by
  show StableHlo.after hostOps0 (fun b => m (c, b)) (Proc.devRef .tc main_v2) = _
  after_results
  rfl

/-- The `[64, 2048, 64]` views of the three arguments, at an index. -/
theorem entry_q (c : Dev nD) (x : Fin 64) (r : Fin 2048) (e : Fin 64) :
    (V m c main_v0 : S64x2048x64.Idx → EReal) (ix3 x r e)
      = (m ((c.tc : Thread nD τ).loc main_arg0) : S4x16x2048x64.Idx → EReal) (ix4 (batchOf x) (headIn x) r e) := by
  -- the reshape keeps the row-major position: `((16·b + h)·2048 + r)·64 + e` on both sides, with `x = 16·(x / 16) + x % 16`
  refine (congrFun (V_v0 m c) (ix3 x r e)).trans ?_
  refine shapeCast_apply _ _ _ _ ?_
  show (S4x16x2048x64.rowMajor (ix4 (batchOf x) (headIn x) r e)).val = (S64x2048x64.rowMajor (ix3 x r e)).val
  rw [Shape.rowMajor_val_four, Shape.rowMajor_val_three]
  show (((x.val / 16) * 16 + x.val % 16) * 2048 + r.val) * 64 + e.val = (x.val * 2048 + r.val) * 64 + e.val
  omega
theorem entry_k (c : Dev nD) (x : Fin 64) (r : Fin 2048) (e : Fin 64) :
    (V m c main_v1 : S64x2048x64.Idx → EReal) (ix3 x r e)
      = (m ((c.tc : Thread nD τ).loc main_arg1) : S4x16x2048x64.Idx → EReal) (ix4 (batchOf x) (headIn x) r e) := by
  -- the reshape keeps the row-major position: `((16·b + h)·2048 + r)·64 + e` on both sides, with `x = 16·(x / 16) + x % 16`
  refine (congrFun (V_v1 m c) (ix3 x r e)).trans ?_
  refine shapeCast_apply _ _ _ _ ?_
  show (S4x16x2048x64.rowMajor (ix4 (batchOf x) (headIn x) r e)).val = (S64x2048x64.rowMajor (ix3 x r e)).val
  rw [Shape.rowMajor_val_four, Shape.rowMajor_val_three]
  show (((x.val / 16) * 16 + x.val % 16) * 2048 + r.val) * 64 + e.val = (x.val * 2048 + r.val) * 64 + e.val
  omega
theorem entry_v (c : Dev nD) (x : Fin 64) (r : Fin 2048) (e : Fin 64) :
    (V m c main_v2 : S64x2048x64.Idx → EReal) (ix3 x r e)
      = (m ((c.tc : Thread nD τ).loc main_arg2) : S4x16x2048x64.Idx → EReal) (ix4 (batchOf x) (headIn x) r e) := by
  -- the reshape keeps the row-major position: `((16·b + h)·2048 + r)·64 + e` on both sides, with `x = 16·(x / 16) + x % 16`
  refine (congrFun (V_v2 m c) (ix3 x r e)).trans ?_
  refine shapeCast_apply _ _ _ _ ?_
  show (S4x16x2048x64.rowMajor (ix4 (batchOf x) (headIn x) r e)).val = (S64x2048x64.rowMajor (ix3 x r e)).val
  rw [Shape.rowMajor_val_four, Shape.rowMajor_val_three]
  show (((x.val / 16) * 16 + x.val % 16) * 2048 + r.val) * 64 + e.val = (x.val * 2048 + r.val) * 64 + e.val
  omega

/-- The printed index maps over the grid: at point `t` the query window's block index is `(t / 2, t % 2, 0)`, the key and
    value windows' is `(t / 2, 0, 0)`. -/
private theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The blocks at grid point `t`, at an index. -/
theorem iblk_q (c : Dev nD) (t : Fin cfg0.N) (p : Fin 1024) (e : Fin 64) :
    (iblk m c 0 t : S1x1024x64.Idx → EReal) (ix3 (0 : Fin 1) p e)
      = (m ((c.tc : Thread nD τ).loc main_arg0) : S4x16x2048x64.Idx → EReal)
          (ix4 (batchOf (pointHead t)) (headIn (pointHead t)) (pointRow t p) e) := by
  obtain ⟨e0, e1, e2, -⟩ := idx_facts t
  show (V m c main_v0 : S64x2048x64.Idx → EReal) (((cfg0.win 0).blk t).view.emb (ix3 (0 : Fin 1) p e)) = _
  -- on each axis the block's element sits at block index × block size + its own coordinate
  have h : ((cfg0.win 0).blk t).view.emb (ix3 (0 : Fin 1) p e) = ix3 (pointHead t) (pointRow t p) e := by
    funext a; apply Fin.ext
    match a with
    | ⟨0, _⟩ => show win0_0.index t (0 : Fin 3) * 1 + 1 * (0 : ℕ) = t.val / 2; omega
    | ⟨1, _⟩ => show win0_0.index t (1 : Fin 3) * 1024 + 1 * p.val = 1024 * (t.val % 2) + p.val; omega
    | ⟨2, _⟩ => show win0_0.index t (2 : Fin 3) * 64 + 1 * e.val = e.val; omega
  exact (congrArg (V m c main_v0 : S64x2048x64.Idx → EReal) h).trans (entry_q m c (pointHead t) (pointRow t p) e)
theorem iblk_k (c : Dev nD) (t : Fin cfg0.N) (r : Fin 2048) (e : Fin 64) :
    (iblk m c 1 t : S1x2048x64.Idx → EReal) (ix3 (0 : Fin 1) r e)
      = (m ((c.tc : Thread nD τ).loc main_arg1) : S4x16x2048x64.Idx → EReal)
          (ix4 (batchOf (pointHead t)) (headIn (pointHead t)) r e) := by
  obtain ⟨-, -, -, e0, e1, e2, -⟩ := idx_facts t
  show (V m c main_v1 : S64x2048x64.Idx → EReal) (((cfg0.win 1).blk t).view.emb (ix3 (0 : Fin 1) r e)) = _
  -- on each axis the block's element sits at block index × block size + its own coordinate
  have h : ((cfg0.win 1).blk t).view.emb (ix3 (0 : Fin 1) r e) = ix3 (pointHead t) r e := by
    funext a; apply Fin.ext
    match a with
    | ⟨0, _⟩ => show win0_1.index t (0 : Fin 3) * 1 + 1 * (0 : ℕ) = t.val / 2; omega
    | ⟨1, _⟩ => show win0_1.index t (1 : Fin 3) * 2048 + 1 * r.val = r.val; omega
    | ⟨2, _⟩ => show win0_1.index t (2 : Fin 3) * 64 + 1 * e.val = e.val; omega
  exact (congrArg (V m c main_v1 : S64x2048x64.Idx → EReal) h).trans (entry_k m c (pointHead t) r e)
theorem iblk_v (c : Dev nD) (t : Fin cfg0.N) (r : Fin 2048) (e : Fin 64) :
    (iblk m c 2 t : S1x2048x64.Idx → EReal) (ix3 (0 : Fin 1) r e)
      = (m ((c.tc : Thread nD τ).loc main_arg2) : S4x16x2048x64.Idx → EReal)
          (ix4 (batchOf (pointHead t)) (headIn (pointHead t)) r e) := by
  obtain ⟨-, -, -, -, -, -, e0, e1, e2⟩ := idx_facts t
  show (V m c main_v2 : S64x2048x64.Idx → EReal) (((cfg0.win 2).blk t).view.emb (ix3 (0 : Fin 1) r e)) = _
  -- on each axis the block's element sits at block index × block size + its own coordinate
  have h : ((cfg0.win 2).blk t).view.emb (ix3 (0 : Fin 1) r e) = ix3 (pointHead t) r e := by
    funext a; apply Fin.ext
    match a with
    | ⟨0, _⟩ => show win0_2.index t (0 : Fin 3) * 1 + 1 * (0 : ℕ) = t.val / 2; omega
    | ⟨1, _⟩ => show win0_2.index t (1 : Fin 3) * 2048 + 1 * r.val = r.val; omega
    | ⟨2, _⟩ => show win0_2.index t (2 : Fin 3) * 64 + 1 * e.val = e.val; omega
  exact (congrArg (V m c main_v2 : S64x2048x64.Idx → EReal) h).trans (entry_v m c (pointHead t) r e)

end Cert.Attention.Kernel

end
-- ==== Proof.OutputCover.lean ====
/-
  The output blocks tile the `[64, 2048, 64]` result, and the result is then viewed `[4, 16, 2048, 64]`.

  Grid point `t` writes back rows `1024·(t % 2) … + 1023` of head `t / 2`; every index `(x, r, d)` of the result lies in
  the block of point `2·x + r / 1024`. After the region the result is viewed with the head axis split:
  head `h` of batch `b` is head `16·b + h` of the `[64, 2048, 64]` array.
-/
import proofs.«423420_j32263794328206_3_alg».proof.Proof.EntryBlocks

set_option maxRecDepth 16384

noncomputable section

namespace Cert.Attention.Kernel

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

variable (m : (ℓ : Loc nD τ sig) → Buf (Elt Ideal) ℓ)

/-- The output window's block indices, decided over the grid: point `t` is block `(t / 2, t % 2, 0)`. -/
private theorem idx_facts3 : ∀ t : Fin cfg0.N, win0_3.index t (0 : Fin 3) = t.val / 2
    ∧ win0_3.index t (1 : Fin 3) = t.val % 2 ∧ win0_3.index t (2 : Fin 3) = 0 :=
  (by decide +kernel : ∀ t : Fin grid0.N, _)

/-- An index of the result is in point `t`'s block iff each coordinate is in the block's range on its axis. -/
private theorem mem_blk3 (t : Fin cfg0.N) (i : S64x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- Where element `(0, p, d)` of grid point `t`'s output block sits in the result. -/
theorem out_emb (t : Fin cfg0.N) (p : Fin 1024) (d : Fin 64) :
    (((cfg0.win 3).blk t).view.emb (ix3 (0 : Fin 1) p d) : S64x2048x64.Idx) = ix3 (pointHead t) (pointRow t p) d := by
  obtain ⟨e0, e1, e2⟩ := idx_facts3 t
  funext a; apply Fin.ext
  match a with
  | ⟨0, _⟩ => show win0_3.index t (0 : Fin 3) * 1 + 1 * 0 = t.val / 2; omega
  | ⟨1, _⟩ => show win0_3.index t (1 : Fin 3) * 1024 + 1 * p.val = 1024 * (t.val % 2) + p.val; omega
  | ⟨2, _⟩ => show win0_3.index t (2 : Fin 3) * 64 + 1 * d.val = d.val; omega

/-- Every index of the result is in the block some grid point writes back. -/
theorem out_cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  have hN : 2 * (i 0).val + (i 1).val / 1024 < cfg0.N :=
    Nat.lt_of_lt_of_le (by omega : 2 * (i 0).val + (i 1).val / 1024 < 128) (le_of_eq N_0.symm)
  obtain ⟨t, ht⟩ : ∃ t : Fin cfg0.N, t.val = 2 * (i 0).val + (i 1).val / 1024 := ⟨⟨_, hN⟩, rfl⟩
  obtain ⟨e0, e1, e2⟩ := idx_facts3 t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 64 ≤ (i 2).val ∧ (i 2).val < win0_3.index t (2 : Fin 3) * 64 + 64
    omega

/-- The final view: whatever the region leaves in the `[64, 2048, 64]` result, the program's result at `(b, h, r, e)` is
    that array at `(16·b + h, r, e)`. -/
theorem tail_apply (c : Dev nD) (A : S64x2048x64.Idx → EReal) (hA : ((dats m 0 c).arrAt 3 cfg0.N : S64x2048x64.Idx → EReal) = A)
    (b : Fin 4) (h : Fin 16) (r : Fin 2048) (e : Fin 64) :
    (Pipeline.afterTail₀ cfgs (dats m) 0 (V0 m) [hostOps1] c main_v4 : S4x16x2048x64.Idx → EReal) (ix4 b h r e)
      = A (ix3 (headOf b h) r e) := by
  have hArr : (Pipeline.withArrays (cfgs 0).spec c (V0 m c) (fun w => (dats m 0 c).arrAt w (cfgs 0).N)
      (Proc.tc.devRef main_v3) : S64x2048x64.Idx → EReal) = A :=
    (Pipeline.withArrays_arr spec0 winFacts0.arr_inj c _ _ 3).trans hA
  have hfun : (Pipeline.afterTail₀ cfgs (dats m) 0 (V0 m) [hostOps1] c main_v4 : S4x16x2048x64.Idx → EReal)
      = shapeCast S4x16x2048x64 A shapeCasts_S64x2048x64_S4x16x2048x64 := by
    unfold Pipeline.afterTail₀
    show StableHlo.after hostOps1 _ (Proc.devRef .tc main_v4) = _
    after_results
    rw [← hArr]
    rfl
  rw [hfun]
  refine shapeCast_apply A _ (ix4 b h r e) (ix3 (headOf b h) r e) ?_
  rw [Shape.rowMajor_val_three, Shape.rowMajor_val_four]
  show ((16 * b.val + h.val) * 2048 + r.val) * 64 + e.val = ((b.val * 16 + h.val) * 2048 + r.val) * 64 + e.val
  omega

end Cert.Attention.Kernel

end
-- ==== Proof.KernelValue.lean ====
/-
  The kernel's result array, from real inputs: softmax attention at every index.

  At grid point `t` (head `t / 2`, query tile `t % 2`) the body is given real blocks — rows of the three arguments —
  so what it writes back is, row by row, the softmax-weighted average of the head's value rows (`result_real`), which
  is block `t` of the one array `result3`. The blocks tile the `[64, 2048, 64]` result, so the array after the region
  is `result3`; the final view `[4, 16, 2048, 64]` of it is the attention array.
-/
import proofs.«423420_j32263794328206_3_alg».proof.Proof.RowInvariant
import proofs.«423420_j32263794328206_3_alg».proof.Proof.OutputCover

set_option maxRecDepth 16384

noncomputable section

namespace Cert.Attention.Kernel

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.Attention Cert.Attention.Loop

variable (m : (ℓ : Loc nD τ sig) → Buf (Elt Ideal) ℓ) (ρ : Dev nD → PrngReg)

theorem batchOf_headOf (b : Fin 4) (h : Fin 16) : batchOf (headOf b h) = b :=
  Fin.ext (by have := h.isLt; show (16 * b.val + h.val) / 16 = b.val; omega)
theorem headIn_headOf (b : Fin 4) (h : Fin 16) : headIn (headOf b h) = h :=
  Fin.ext (by have := h.isLt; show (16 * b.val + h.val) % 16 = h.val; omega)

section OneCore

variable (qR kR vR : SA.Idx → ℝ) (c : Dev nD)

/-- The argument arrays on core `c` hold the reals `qR`, `kR`, `vR`. -/
def Holds : Prop :=
  (m ((c.tc : Thread nD τ).loc main_arg0) : S4x16x2048x64.Idx → EReal) = (fun i => (qR i : EReal))
  ∧ (m ((c.tc : Thread nD τ).loc main_arg1) : S4x16x2048x64.Idx → EReal) = (fun i => (kR i : EReal))
  ∧ (m ((c.tc : Thread nD τ).loc main_arg2) : S4x16x2048x64.Idx → EReal) = (fun i => (vR i : EReal))

/-- The `[64, 2048, 64]` result: head `x`, row `r`, column `d` holds the attention of batch `x / 16`, head `x % 16`. -/
def result3 : S64x2048x64.Idx → EReal := fun i =>
  attnArr qR kR vR (ix4 (batchOf ⟨(i 0).val, (i 0).isLt⟩) (headIn ⟨(i 0).val, (i 0).isLt⟩) ⟨(i 1).val, (i 1).isLt⟩ ⟨(i 2).val, (i 2).isLt⟩)

/-- The real blocks at grid point `t`. -/
def xq (t : Fin cfg0.N) : S1x1024x64.Idx → ℝ := fun y =>
  qR (ix4 (batchOf (pointHead t)) (headIn (pointHead t)) (pointRow t ⟨(y 1).val, (y 1).isLt⟩) ⟨(y 2).val, (y 2).isLt⟩)
def xk (t : Fin cfg0.N) : S1x2048x64.Idx → ℝ := fun y =>
  kR (ix4 (batchOf (pointHead t)) (headIn (pointHead t)) ⟨(y 1).val, (y 1).isLt⟩ ⟨(y 2).val, (y 2).isLt⟩)
def xv (t : Fin cfg0.N) : S1x2048x64.Idx → ℝ := fun y =>
  vR (ix4 (batchOf (pointHead t)) (headIn (pointHead t)) ⟨(y 1).val, (y 1).isLt⟩ ⟨(y 2).val, (y 2).isLt⟩)

theorem eq_ix3_zero {n1 n2 : Nat} (y : (⟨3, ![1, n1, n2]⟩ : Shape).Idx) :
    y = ix3 (0 : Fin 1) ⟨(y 1).val, (y 1).isLt⟩ ⟨(y 2).val, (y 2).isLt⟩ := by
  funext a
  match a with
  | ⟨0, _⟩ => exact Subsingleton.elim (α := Fin 1) _ _
  | ⟨1, _⟩ => rfl
  | ⟨2, _⟩ => rfl

variable {qR kR vR c}

theorem ix3_zero_surj {n1 n2 : Nat} (y : (⟨3, ![1, n1, n2]⟩ : Shape).Idx) :
    ∃ (p : Fin n1) (e : Fin n2), y = ix3 (0 : Fin 1) p e :=
  ⟨⟨(y 1).val, (y 1).isLt⟩, ⟨(y 2).val, (y 2).isLt⟩, eq_ix3_zero y⟩

theorem blk_q (hm : Holds m qR kR vR c) (t : Fin cfg0.N) :
    (iblk m c 0 t : S1x1024x64.Idx → EReal) = bq (xq qR t) := by
  refine funext fun (y : S1x1024x64.Idx) => ?_
  obtain ⟨p, e, rfl⟩ := ix3_zero_surj y
  exact (iblk_q m c t p e).trans (congrFun hm.1 _)
theorem blk_k (hm : Holds m qR kR vR c) (t : Fin cfg0.N) :
    (iblk m c 1 t : S1x2048x64.Idx → EReal) = bk (xk kR t) := by
  refine funext fun (y : S1x2048x64.Idx) => ?_
  obtain ⟨r, e, rfl⟩ := ix3_zero_surj y
  exact (iblk_k m c t r e).trans (congrFun hm.2.1 _)
theorem blk_v (hm : Holds m qR kR vR c) (t : Fin cfg0.N) :
    (iblk m c 2 t : S1x2048x64.Idx → EReal) = bv (xv vR t) := by
  refine funext fun (y : S1x2048x64.Idx) => ?_
  obtain ⟨r, e, rfl⟩ := ix3_zero_surj y
  exact (iblk_v m c t r e).trans (congrFun hm.2.2 _)

/-- What the body leaves at row `p`, column `d` of point `t`'s output block. -/
theorem out_point (hm : Holds m qR kR vR c) (t : Fin cfg0.N) (p : Fin 1024) (d : Fin 64) :
    k0_pay10 (F := Ideal) (state (iblk m c 0 t) (iblk m c 1 t) (iblk m c 2 t) 4).2.1
        (state (iblk m c 0 t) (iblk m c 1 t) (iblk m c 2 t) 4).2.2 (ix3 (0 : Fin 1) p d)
      = result3 qR kR vR (ix3 (pointHead t) (pointRow t p) d) := by
  rw [blk_q m hm t, blk_k m hm t, blk_v m hm t, result_real]
  rfl

/-- WHAT POINT `t` WRITES BACK is block `t` of `result3`. -/
theorem flushed_eq (hm : Holds m qR kR vR c) (t : Fin cfg0.N) :
    (dats m 0 c).flushed 3 t = ((cfg0.win 3).blk t).view.read (Elt Ideal) (result3 qR kR vR) := by
  show (cfg0.win 3).cut (grid0.coords t) ((dats m 0 c).after 3 t) = _
  rw [after0_3]
  unfold outsAt0
  rw [out_eq]
  refine funext fun (y : S1x1024x64.Idx) => ?_
  obtain ⟨p, d, rfl⟩ := ix3_zero_surj y
  show k0_pay10 (F := Ideal) (state (iblk m c 0 t) (iblk m c 1 t) (iblk m c 2 t) 4).2.1
      (state (iblk m c 0 t) (iblk m c 1 t) (iblk m c 2 t) 4).2.2 (ix3 (0 : Fin 1) p d)
    = result3 qR kR vR (((cfg0.win 3).blk t).view.emb (ix3 (0 : Fin 1) p d))
  rw [out_emb]
  exact out_point m hm t p d

/-- THE RESULT ARRAY after the region. -/
theorem final (hm : Holds m qR kR vR c) :
    ((dats m 0 c).arrAt 3 cfg0.N : S64x2048x64.Idx → EReal) = result3 qR kR vR :=
  (dats m 0 c).arrAt_eq_of_cover 3 (result3 qR kR vR) (fun t _ => flushed_eq m hm t) out_cover

/-- The program's result: the attention array. -/
theorem tail_eq (hm : Holds m qR kR vR c) :
    (Pipeline.afterTail₀ cfgs (dats m) 0 (V0 m) [hostOps1] c main_v4 : S4x16x2048x64.Idx → EReal) = attnArr qR kR vR := by
  refine funext fun (i : S4x16x2048x64.Idx) => ?_
  obtain ⟨b, h, r, e, rfl⟩ : ∃ (b : Fin 4) (h : Fin 16) (r : Fin 2048) (e : Fin 64), i = ix4 b h r e :=
    ⟨i 0, i 1, i 2, i 3, eq_ix4 i⟩
  refine (tail_apply m c _ (final m hm) b h r e).trans ?_
  show attnArr qR kR vR (ix4 (batchOf (headOf b h)) (headIn (headOf b h)) r e) = _
  rw [batchOf_headOf, headIn_headOf]

end OneCore

/-- THE RUN, read: from real inputs every weakly fair execution ends with the attention array in the result and the
    arguments as they were. -/
theorem run (qR kR vR : Dev nD → SA.Idx → ℝ) (hm : ∀ c : Dev nD, Holds m (qR c) (kR c) (vR c) c) :
    θ_run defs (onTc (τ := τ) (main (F := Ideal))) ⟨m, fun _ => 0, ρ⟩ (fun r => ∀ c : Dev nD,
      r.2.mem ((c.tc : Thread nD τ).loc main_v4) = attnArr (qR c) (kR c) (vR c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m (hm c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attention.Kernel

end
-- ==== Proof.lean ====
/-
  Softmax attention, a kernel with a running softmax over four key chunks against the plain two-pass reference:
  the two idealized programs compute one function of their arguments when the arguments are finite.

  On the extended reals, with finite inputs, every quantity either program forms on a row is a real. The reference
  subtracts the row's maximum, exponentiates, normalises each weight by the row's sum and contracts with the value
  rows. The kernel scales the queries by `1/8` first (the same inner products, scaled), then walks the keys in four
  chunks of 512 carrying a running maximum, a running sum and an accumulator, rescaling both by
  `exp (old maximum - new maximum)` at each chunk, and divides once at the end. Both results are the exp-weighted
  average of the value rows: a softmax does not depend on which real is subtracted from the scores, the rescaling
  keeps the carried sums those of all keys seen at the current shift, and dividing each weight or the total is the
  same. The precondition is used exactly for "every entry is a real": without it the cancellations above fail at the
  infinities.

  The three frames: the two kernels' are the generated frame certificates; the reference has no kernel, and its frame
  is its generated run with the result dropped. No operation was rewritten by the idealization, so there is nothing to
  preserve.
-/
import proofs.«423420_j32263794328206_3_alg».proof.Defs
import proofs.«423420_j32263794328206_3_alg».proof.Proof.Gen.Kernel
import proofs.«423420_j32263794328206_3_alg».proof.Proof.Gen.Kernel.Frame
import proofs.«423420_j32263794328206_3_alg».proof.Proof.Gen.KernelIdeal
import proofs.«423420_j32263794328206_3_alg».proof.Proof.Gen.KernelIdeal.Frame
import proofs.«423420_j32263794328206_3_alg».proof.Proof.Gen.ReferenceIdeal
import proofs.«423420_j32263794328206_3_alg».proof.Proof.Gen.ReferenceIdeal.Run
import proofs.«423420_j32263794328206_3_alg».proof.Proof.Gen.ReferenceIdeal.Read
import proofs.«423420_j32263794328206_3_alg».proof.Proof.Gen.Pre_finite_inputs
import proofs.«423420_j32263794328206_3_alg».proof.Proof.AttentionFunction
import proofs.«423420_j32263794328206_3_alg».proof.Proof.FiniteInputs
import proofs.«423420_j32263794328206_3_alg».proof.Proof.ReferenceValue
import proofs.«423420_j32263794328206_3_alg».proof.Proof.KernelValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on finite arguments both programs end with the attention array of those arguments. -/
theorem algebraic : Cert.algebraic_KernelIdeal_ReferenceIdeal := by
  intro m ρ m' ρ' hpre hagree
  -- on every device the three arguments hold reals
  have hreal := fun c : Dev Cert.KernelIdeal.nD => Cert.Attention.real_of_pre _ _ _ (hpre c)
  choose qR hq using fun c => (hreal c).1
  choose kR hk using fun c => (hreal c).2.1
  choose vR hv using fun c => (hreal c).2.2
  have hm : ∀ c, Cert.Attention.Kernel.Holds m (qR c) (kR c) (vR c) c :=
    fun c => ⟨funext (hq c), funext (hk c), funext (hv c)⟩
  refine ⟨fun c => Cert.Attention.attnArr (qR c) (kR c) (vR c), Cert.Attention.Kernel.run m ρ qR kR vR hm, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, (hagree c).1, (hagree c).2.1, (hagree c).2.2,
    (hm c).1, (hm c).2.1, (hm c).2.2]
  refine funext fun (i : Cert.Attention.SA.Idx) => ?_
  obtain ⟨b, hd, q, d, rfl⟩ : ∃ (b : Fin 4) (hd : Fin 16) (q : Fin 2048) (d : Fin 64), i = ix4 b hd q d :=
    ⟨i 0, i 1, i 2, i 3, eq_ix4 i⟩
  exact (Cert.Attention.Reference.value (qR c) (kR c) (vR c) b hd q d).trans
    (Cert.Attention.attnArr_apply (qR c) (kR c) (vR c) b hd q d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
